-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280000 : Shape := ⟨1, ![1280000]⟩
abbrev S100000x64 : Shape := ⟨2, ![100000, 64]⟩
abbrev S200000x64 : Shape := ⟨2, ![200000, 64]⟩
abbrev S_ : Shape := ⟨0, ![]⟩

class Facts : Prop where
  bcast_S_S1280000 : S_.BroadcastsInDim S1280000 (![] : Fin 0 → Fin S1280000.rank)
  reducesTo_S1280000_S_d0 : S1280000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S200000x64 : S_.BroadcastsInDim S200000x64 (![] : Fin 0 → Fin S200000x64.rank)
  reducesTo_S200000x64_S_d0_1 : S200000x64.ReducesTo [0, 1] S_

variable [Facts]

def fn {F : FTy → Type} [FloatOps F] (main_arg0 : FVec F S1280000 .f32) (main_arg1 : FVec F S100000x64 .f32) (main_arg2 : FVec F S200000x64 .f32) (main_arg3 : IVec S1280000 32) (main_arg4 : IVec S1280000 32) : IVec S_ 1 :=
  let main_v0 : FVec F S1280000 .f32 := Host.absf main_arg0
  let main_cst : FVec F S_ .f32 := constant S_ .f32 0x7F800000#32
  let main_v1 : FVec F S1280000 .f32 := broadcastInDim S1280000 ![] bcast_S_S1280000 main_cst
  let main_v2 : IVec S1280000 1 := cmpf .olt main_v0 main_v1
  let main_c : IVec S_ 1 := constantI S_ 1 1#1
  let main_v3 : IVec S_ 1 := (fun x v => Host.reduce IntOp.andi x v reducesTo_S1280000_S_d0 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S200000x64 .f32 := Host.absf main_arg2
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  main_v13
-- ==== Kernel.lean ====
abbrev S1280000 : Shape := ⟨1, ![1280000]⟩
abbrev S100000x64 : Shape := ⟨2, ![100000, 64]⟩
abbrev S200000x64 : Shape := ⟨2, ![200000, 64]⟩
abbrev S300000x64 : Shape := ⟨2, ![300000, 64]⟩
abbrev S_ : Shape := ⟨0, ![]⟩
abbrev S1280000x1 : Shape := ⟨2, ![1280000, 1]⟩
abbrev S1280000x64 : Shape := ⟨2, ![1280000, 64]⟩
abbrev S25600x64 : Shape := ⟨2, ![25600, 64]⟩
abbrev S25600 : Shape := ⟨1, ![25600]⟩
abbrev S25600x1 : Shape := ⟨2, ![25600, 1]⟩
abbrev S10000x64 : Shape := ⟨2, ![10000, 64]⟩

abbrev nBuf : Space → Nat
  | .hbm => 53
  | .vmem => 36
  | .smem => 0
  | _ => 0

abbrev bufTy : (tb : Table) → Fin (tcTables nBuf tb) → BufTy
  | .hbm, ⟨0, _⟩ => ⟨S1280000, .f32⟩
  | .hbm, ⟨1, _⟩ => ⟨S100000x64, .f32⟩
  | .hbm, ⟨2, _⟩ => ⟨S200000x64, .f32⟩
  | .hbm, ⟨3, _⟩ => ⟨S1280000, .i32⟩
  | .hbm, ⟨4, _⟩ => ⟨S1280000, .i32⟩
  | .hbm, ⟨5, _⟩ => ⟨S300000x64, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x64, .f32⟩
  | .hbm, ⟨16, _⟩ => ⟨S_, .f32⟩
  | .hbm, ⟨17, _⟩ => ⟨S300000x64, .f32⟩
  | .hbm, ⟨18, _⟩ => ⟨S1280000x1, .i32⟩
  | .hbm, ⟨19, _⟩ => ⟨S300000x64, .f32⟩
  | .hbm, ⟨20, _⟩ => ⟨S300000x64, .f32⟩
  | .hbm, ⟨21, _⟩ => ⟨S_, .i32⟩
  | .hbm, ⟨22, _⟩ => ⟨S1280000, .i32⟩
  | .hbm, ⟨23, _⟩ => ⟨S1280000, .i1⟩
  | .hbm, ⟨24, _⟩ => ⟨S_, .i32⟩
  | .hbm, ⟨25, _⟩ => ⟨S1280000, .i32⟩
  | .hbm, ⟨26, _⟩ => ⟨S1280000, .i32⟩
  | .hbm, ⟨27, _⟩ => ⟨S1280000, .i32⟩
  | .hbm, ⟨28, _⟩ => ⟨S1280000x1, .i32⟩
  | .hbm, ⟨29, _⟩ => ⟨S1280000x64, .f32⟩
  | .hbm, ⟨30, _⟩ => ⟨S1280000x64, .f32⟩
  | .hbm, ⟨31, _⟩ => ⟨S_, .f32⟩
  | .hbm, ⟨32, _⟩ => ⟨S300000x64, .f32⟩
  | .hbm, ⟨33, _⟩ => ⟨S1280000x1, .i32⟩
  | .hbm, ⟨34, _⟩ => ⟨S300000x64, .f32⟩
  | .hbm, ⟨35, _⟩ => ⟨S300000x64, .f32⟩
  | .hbm, ⟨36, _⟩ => ⟨S_, .i32⟩
  | .hbm, ⟨37, _⟩ => ⟨S1280000, .i32⟩
  | .hbm, ⟨38, _⟩ => ⟨S1280000, .i1⟩
  | .hbm, ⟨39, _⟩ => ⟨S_, .i32⟩
  | .hbm, ⟨40, _⟩ => ⟨S1280000, .i32⟩
  | .hbm, ⟨41, _⟩ => ⟨S1280000, .i32⟩
  | .hbm, ⟨42, _⟩ => ⟨S1280000, .i32⟩
  | .hbm, ⟨43, _⟩ => ⟨S1280000x1, .i32⟩
  | .hbm, ⟨44, _⟩ => ⟨S1280000x64, .f32⟩
  | .hbm, ⟨45, _⟩ => ⟨S1280000x64, .f32⟩
  | .hbm, ⟨46, _⟩ => ⟨S_, .f32⟩
  | .hbm, ⟨47, _⟩ => ⟨S300000x64, .f32⟩
  | .hbm, ⟨48, _⟩ => ⟨S1280000x1, .i32⟩
  | .hbm, ⟨49, _⟩ => ⟨S300000x64, .f32⟩
  | .hbm, ⟨50, _⟩ => ⟨S300000x64, .f32⟩
  | .hbm, ⟨51, _⟩ => ⟨S100000x64, .f32⟩
  | .hbm, ⟨52, _⟩ => ⟨S200000x64, .f32⟩
  | .local _ .vmem, ⟨0, _⟩ => ⟨S25600x64, .f32⟩
  | .local _ .vmem, ⟨1, _⟩ => ⟨S25600x64, .f32⟩
  | .local _ .vmem, ⟨2, _⟩ => ⟨S25600, .f32⟩
  | .local _ .vmem, ⟨3, _⟩ => ⟨S25600, .f32⟩
  | .local _ .vmem, ⟨4, _⟩ => ⟨S25600x64, .f32⟩
  | .local _ .vmem, ⟨5, _⟩ => ⟨S25600x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S25600x64, .f32⟩
  | .local _ .vmem, ⟨13, _⟩ => ⟨S25600x64, .f32⟩
  | .local _ .vmem, ⟨14, _⟩ => ⟨S25600, .f32⟩
  | .local _ .vmem, ⟨15, _⟩ => ⟨S25600, .f32⟩
  | .local _ .vmem, ⟨16, _⟩ => ⟨S25600x64, .f32⟩
  | .local _ .vmem, ⟨17, _⟩ => ⟨S25600x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S25600x64, .f32⟩
  | .local _ .vmem, ⟨25, _⟩ => ⟨S25600x64, .f32⟩
  | .local _ .vmem, ⟨26, _⟩ => ⟨S25600, .f32⟩
  | .local _ .vmem, ⟨27, _⟩ => ⟨S25600, .f32⟩
  | .local _ .vmem, ⟨28, _⟩ => ⟨S25600x64, .f32⟩
  | .local _ .vmem, ⟨29, _⟩ => ⟨S25600x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S1280000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25600x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S25600x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25600x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S25600 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S25600x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S25600x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S25600 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S25600x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  concatenates_S100000x64_S200000x64_S300000x64_d0 : Shape.Concatenates [S100000x64, S200000x64] S300000x64 0
  bcast_S_S1280000 : S_.BroadcastsInDim S1280000 (![] : Fin 0 → Fin S1280000.rank)
  bcast_S1280000_S1280000x1_0 : S1280000.BroadcastsInDim S1280000x1 (![0] : Fin 1 → Fin S1280000x1.rank)
  inb_S25600_S25600_0 : ∀ a, (![0] : Fin 1 → Nat) a + S25600.size a ≤ S25600.size a
  h_S25600 : 0 < S25600.numel
  inb_S25600x64_S25600x64_0_0 : ∀ a, (![0, 0] : Fin 2 → Nat) a + S25600x64.size a ≤ S25600x64.size a
  h_S25600x64 : 0 < S25600x64.numel
  shapeCasts_S25600x64_S25600x64 : S25600x64.ShapeCasts S25600x64
  shapeCasts_S25600_S25600x1 : S25600.ShapeCasts S25600x1
  broadcasts_S25600x1_S25600x64 : S25600x1.Broadcasts S25600x64
  bcast_S_S300000x64 : S_.BroadcastsInDim S300000x64 (![] : Fin 0 → Fin S300000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S300000x64_S100000x64_0_0 : S300000x64.Slices ![0, 0] S100000x64
  slices_S300000x64_S200000x64_100000_0 : S300000x64.Slices ![100000, 0] S200000x64
  gather_S300000x64_S1280000x1_S1280000x64_1_0_n_n_0_1_164_wf : GatherDims.WF S300000x64 S1280000x1 S1280000x64 [1] [0] [] [0] [] 1 ![1, 64]
  scatter_S300000x64_S1280000x1_S1280000x64_1_0_0_1_wf : ScatterDims.WF S300000x64 S1280000x1 S1280000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25600x64.size a ≤ S1280000x64.size a
  hwx0_0 : ∀ i : grid0.Coords, EltTy.bits .f32 = 32 ∨ (Rect.block (s := S1280000x64) S25600x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25600.size a ≤ S1280000.size a
  hwx0_1 : ∀ i : grid0.Coords, EltTy.bits .f32 = 32 ∨ (Rect.block (s := S1280000) S25600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25600x64.size a ≤ S1280000x64.size a
  hwx0_2 : ∀ i : grid0.Coords, EltTy.bits .f32 = 32 ∨ (Rect.block (s := S1280000x64) S25600x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S300000x64.size a
  hwx1_0 : ∀ i : grid1.Coords, EltTy.bits .f32 = 32 ∨ (Rect.block (s := S300000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S300000x64.size a
  hwx1_1 : ∀ i : grid1.Coords, EltTy.bits .f32 = 32 ∨ (Rect.block (s := S300000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S300000x64.size a
  hwx1_2 : ∀ i : grid1.Coords, EltTy.bits .f32 = 32 ∨ (Rect.block (s := S300000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25600x64.size a ≤ S1280000x64.size a
  hwx2_0 : ∀ i : grid2.Coords, EltTy.bits .f32 = 32 ∨ (Rect.block (s := S1280000x64) S25600x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S25600.size a ≤ S1280000.size a
  hwx2_1 : ∀ i : grid2.Coords, EltTy.bits .f32 = 32 ∨ (Rect.block (s := S1280000) S25600.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25600x64.size a ≤ S1280000x64.size a
  hwx2_2 : ∀ i : grid2.Coords, EltTy.bits .f32 = 32 ∨ (Rect.block (s := S1280000x64) S25600x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S300000x64.size a
  hwx3_0 : ∀ i : grid3.Coords, EltTy.bits .f32 = 32 ∨ (Rect.block (s := S300000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S300000x64.size a
  hwx3_1 : ∀ i : grid3.Coords, EltTy.bits .f32 = 32 ∨ (Rect.block (s := S300000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S300000x64.size a
  hwx3_2 : ∀ i : grid3.Coords, EltTy.bits .f32 = 32 ∨ (Rect.block (s := S300000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S25600x64.size a ≤ S1280000x64.size a
  hwx4_0 : ∀ i : grid4.Coords, EltTy.bits .f32 = 32 ∨ (Rect.block (s := S1280000x64) S25600x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S25600.size a ≤ S1280000.size a
  hwx4_1 : ∀ i : grid4.Coords, EltTy.bits .f32 = 32 ∨ (Rect.block (s := S1280000) S25600.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S25600x64.size a ≤ S1280000x64.size a
  hwx4_2 : ∀ i : grid4.Coords, EltTy.bits .f32 = 32 ∨ (Rect.block (s := S1280000x64) S25600x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S300000x64.size a
  hwx5_0 : ∀ i : grid5.Coords, EltTy.bits .f32 = 32 ∨ (Rect.block (s := S300000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S300000x64.size a
  hwx5_1 : ∀ i : grid5.Coords, EltTy.bits .f32 = 32 ∨ (Rect.block (s := S300000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S300000x64.size a
  hwx5_2 : ∀ i : grid5.Coords, EltTy.bits .f32 = 32 ∨ (Rect.block (s := S300000x64) S10000x64.size (cc5_transform_2 i) (hinb5_2 i)).WholeWords (EltTy.packing .f32)

variable [Facts₀]

def gather_S300000x64_S1280000x1_S1280000x64_1_0_n_n_0_1_164 : GatherDims S300000x64 S1280000x1 S1280000x64 where
  offsetDims := [1]
  collapsedSliceDims := [0]
  operandBatchingDims := []
  startIndicesBatchingDims := []
  startIndexMap := [0]
  indexVectorDim := 1
  sliceSizes := ![1, 64]
  wf := gather_S300000x64_S1280000x1_S1280000x64_1_0_n_n_0_1_164_wf
def scatter_S300000x64_S1280000x1_S1280000x64_1_0_0_1 : ScatterDims S300000x64 S1280000x1 S1280000x64 where
  updateWindowDims := [1]
  insertedWindowDims := [0]
  scatterDimsToOperandDims := [0]
  indexVectorDim := 1
  wf := scatter_S300000x64_S1280000x1_S1280000x64_1_0_0_1_wf

abbrev win0_0 : Pipeline.Window sig grid0 :=
  Pipeline.Window.ofSpec (Memref.whole main_v7) S25600x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S25600x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S25600x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S25600.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S25600x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S25600x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S25600.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S25600x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v24) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S1280000 : Shape := ⟨1, ![1280000]⟩
abbrev S100000x64 : Shape := ⟨2, ![100000, 64]⟩
abbrev S200000x64 : Shape := ⟨2, ![200000, 64]⟩
abbrev S300000x64 : Shape := ⟨2, ![300000, 64]⟩
abbrev S_ : Shape := ⟨0, ![]⟩
abbrev S1280000x1 : Shape := ⟨2, ![1280000, 1]⟩
abbrev S1280000x64 : Shape := ⟨2, ![1280000, 64]⟩

abbrev nBuf : Space → Nat
  | .hbm => 59
  | .vmem => 0
  | .smem => 0
  | _ => 0

abbrev bufTy : (tb : Table) → Fin (tcTables nBuf tb) → BufTy
  | .hbm, ⟨0, _⟩ => ⟨S1280000, .f32⟩
  | .hbm, ⟨1, _⟩ => ⟨S100000x64, .f32⟩
  | .hbm, ⟨2, _⟩ => ⟨S200000x64, .f32⟩
  | .hbm, ⟨3, _⟩ => ⟨S1280000, .i32⟩
  | .hbm, ⟨4, _⟩ => ⟨S1280000, .i32⟩
  | .hbm, ⟨5, _⟩ => ⟨S300000x64, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x1, .f32⟩
  | .hbm, ⟨16, _⟩ => ⟨S1280000x64, .f32⟩
  | .hbm, ⟨17, _⟩ => ⟨S1280000x64, .f32⟩
  | .hbm, ⟨18, _⟩ => ⟨S_, .f32⟩
  | .hbm, ⟨19, _⟩ => ⟨S300000x64, .f32⟩
  | .hbm, ⟨20, _⟩ => ⟨S1280000x1, .i32⟩
  | .hbm, ⟨21, _⟩ => ⟨S300000x64, .f32⟩
  | .hbm, ⟨22, _⟩ => ⟨S300000x64, .f32⟩
  | .hbm, ⟨23, _⟩ => ⟨S_, .i32⟩
  | .hbm, ⟨24, _⟩ => ⟨S1280000, .i32⟩
  | .hbm, ⟨25, _⟩ => ⟨S1280000, .i1⟩
  | .hbm, ⟨26, _⟩ => ⟨S_, .i32⟩
  | .hbm, ⟨27, _⟩ => ⟨S1280000, .i32⟩
  | .hbm, ⟨28, _⟩ => ⟨S1280000, .i32⟩
  | .hbm, ⟨29, _⟩ => ⟨S1280000, .i32⟩
  | .hbm, ⟨30, _⟩ => ⟨S1280000x1, .i32⟩
  | .hbm, ⟨31, _⟩ => ⟨S1280000x64, .f32⟩
  | .hbm, ⟨32, _⟩ => ⟨S1280000x1, .f32⟩
  | .hbm, ⟨33, _⟩ => ⟨S1280000x64, .f32⟩
  | .hbm, ⟨34, _⟩ => ⟨S1280000x64, .f32⟩
  | .hbm, ⟨35, _⟩ => ⟨S_, .f32⟩
  | .hbm, ⟨36, _⟩ => ⟨S300000x64, .f32⟩
  | .hbm, ⟨37, _⟩ => ⟨S1280000x1, .i32⟩
  | .hbm, ⟨38, _⟩ => ⟨S300000x64, .f32⟩
  | .hbm, ⟨39, _⟩ => ⟨S300000x64, .f32⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000x64, .f32⟩
  | .hbm, ⟨49, _⟩ => ⟨S1280000x1, .f32⟩
  | .hbm, ⟨50, _⟩ => ⟨S1280000x64, .f32⟩
  | .hbm, ⟨51, _⟩ => ⟨S1280000x64, .f32⟩
  | .hbm, ⟨52, _⟩ => ⟨S_, .f32⟩
  | .hbm, ⟨53, _⟩ => ⟨S300000x64, .f32⟩
  | .hbm, ⟨54, _⟩ => ⟨S1280000x1, .i32⟩
  | .hbm, ⟨55, _⟩ => ⟨S300000x64, .f32⟩
  | .hbm, ⟨56, _⟩ => ⟨S300000x64, .f32⟩
  | .hbm, ⟨57, _⟩ => ⟨S100000x64, .f32⟩
  | .hbm, ⟨58, _⟩ => ⟨S200000x64, .f32⟩
  | _, _ => ⟨S1280000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  concatenates_S100000x64_S200000x64_S300000x64_d0 : Shape.Concatenates [S100000x64, S200000x64] S300000x64 0
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S300000x64 : S_.BroadcastsInDim S300000x64 (![] : Fin 0 → Fin S300000x64.rank)
  slices_S300000x64_S100000x64_0_0 : S300000x64.Slices ![0, 0] S100000x64
  slices_S300000x64_S200000x64_100000_0 : S300000x64.Slices ![100000, 0] S200000x64
  gather_S300000x64_S1280000x1_S1280000x64_1_0_n_n_0_1_164_wf : GatherDims.WF S300000x64 S1280000x1 S1280000x64 [1] [0] [] [0] [] 1 ![1, 64]
  scatter_S300000x64_S1280000x1_S1280000x64_1_0_0_1_wf : ScatterDims.WF S300000x64 S1280000x1 S1280000x64 [1] [0] [0] 1

variable [Facts₀]

def gather_S300000x64_S1280000x1_S1280000x64_1_0_n_n_0_1_164 : GatherDims S300000x64 S1280000x1 S1280000x64 where
  offsetDims := [1]
  collapsedSliceDims := [0]
  operandBatchingDims := []
  startIndicesBatchingDims := []
  startIndexMap := [0]
  indexVectorDim := 1
  sliceSizes := ![1, 64]
  wf := gather_S300000x64_S1280000x1_S1280000x64_1_0_n_n_0_1_164_wf
def scatter_S300000x64_S1280000x1_S1280000x64_1_0_0_1 : ScatterDims S300000x64 S1280000x1 S1280000x64 where
  updateWindowDims := [1]
  insertedWindowDims := [0]
  scatterDimsToOperandDims := [0]
  indexVectorDim := 1
  wf := scatter_S300000x64_S1280000x1_S1280000x64_1_0_0_1_wf

class Facts : Prop extends Facts₀ where

variable [Facts]
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.RowScale.lean ====
/-
  Scaling the rows of a matrix by a vector: row `e` of an `[n, d]` matrix `g` is multiplied by the number `v e`.
  This is the per-edge weighting of a sparse matrix product in coordinate form: `g` holds the gathered source rows,
  one per stored entry of the sparse matrix, and `v` the entries' values.

  Two printed forms compute it. A kernel body reshapes its block of `v` to a column `[n, 1]`, broadcasts the column
  over the row axis and multiplies; a host program broadcasts `v` to `[n, 1]` and then to `[n, d]` along the
  leading axis and multiplies. Both read, at `(e, k)`, the product `g (e, k) · v e`, whatever the float instance.
-/
import Idealize.ShloMosaic.Lib.Pipeline.Value
import Idealize.ShloMosaic.Lib.ValueIdx
import proofs.«132044_j74156905333132_1_alg».proof.Proof.LibKeepdims

namespace Cert.Spmm

open Idealize.ShloMosaic Idealize.ShloMosaic.ValueIdx

variable {F : FTy → Type} [FloatOps F] {n d : ℕ}

/-- Row `e` of `g` times the number `v e`: entry `(e, k)` is `g (e, k) · v e`. -/
def scaleRows (g : FVec F ⟨2, ![n, d]⟩ .f32) (v : FVec F ⟨1, ![n]⟩ .f32) : FVec F ⟨2, ![n, d]⟩ .f32 :=
  fun i => FloatOps.mulf (g i) (v (ix1 (i 0)))

/-- The kernel body's form: the vector cast to a column, the column broadcast over the rows, the product. -/
theorem mulf_column_eq (g : FVec F ⟨2, ![n, d]⟩ .f32) (v : FVec F ⟨1, ![n]⟩ .f32)
    (h0 : (⟨2, ![n, d]⟩ : Shape).ShapeCasts ⟨2, ![n, d]⟩) (h1 : (⟨1, ![n]⟩ : Shape).ShapeCasts ⟨2, ![n, 1]⟩)
    (h2 : (⟨2, ![n, 1]⟩ : Shape).Broadcasts ⟨2, ![n, d]⟩) :
    mulf (shapeCast ⟨2, ![n, d]⟩ g h0) (broadcastTo ⟨2, ![n, d]⟩ (shapeCast ⟨2, ![n, 1]⟩ v h1) h2) = scaleRows g v := by
  rw [shapeCast_self, Cert.Lib.Keepdims.broadcastTo_a1_ab_eq, Cert.Lib.Keepdims.shapeCast_a_a1_eq]
  rfl

/-- The host's form: the vector broadcast to a column and the column along the leading axis, the product. -/
theorem mulf_bcast_eq (g : FVec F ⟨2, ![n, d]⟩ .f32) (v : FVec F ⟨1, ![n]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, d]⟩ (![0, 1] : Fin 2 → Fin 2)) :
    mulf g (broadcastInDim ⟨2, ![n, d]⟩ ![0, 1] h2 (broadcastInDim ⟨2, ![n, 1]⟩ ![0] h1 v)) = scaleRows g v := by
  funext i
  have hi : (i 0).val < n := (i 0).isLt
  show FloatOps.mulf (g i) _ = FloatOps.mulf (g i) (v (ix1 (i 0)))
  refine congrArg (FloatOps.mulf (g i)) ?_
  refine (broadcastInDim_apply ![0, 1] h2 _ i (ix2 (i 0) (0 : Fin 1)) (fun a => by
        match a with
        | ⟨0, _⟩ =>
          show (i 0).val = if n = 1 then 0 else (i 0).val
          split
          · omega
          · rfl
        | ⟨1, _⟩ => rfl)).trans ?_
  exact broadcastInDim_apply ![0] h1 v (ix2 (i 0) (0 : Fin 1)) (ix1 (i 0)) (fun a => by
        match a with
        | ⟨0, _⟩ =>
          show (i 0).val = if n = 1 then 0 else (i 0).val
          split
          · omega
          · rfl)

end Cert.Spmm
-- ==== Proof.Layer.lean ====
/-
  One round of message passing over a graph stored in coordinate form, as the host operations of the idealized kernel
  program spell it, and what each stretch of host operations leaves in the buffers it writes.

  The node table is the user rows followed by the item rows. A round takes the current `[300000, 64]` table `x`:
  for every stored entry `e` it reads row `cols e` of `x` (an index below zero counts from the end: `cols e + 300000`),
  scales that row by `vals e`, and adds it into row `rows e` of a table of zeros. The gather and the scatter-add are
  the host's own operations and stay uninterpreted here: both programs apply the same ones to the same operands, so
  only their operands need comparing. Between them sits the row scaling, which the kernel program does in a launch.
-/
import proofs.«132044_j74156905333132_1_alg».proof.Proof.Gen.KernelIdeal.Launch
import proofs.«132044_j74156905333132_1_alg».proof.Proof.RowScale
import Idealize.ShloMosaic.Lib.StableHlo.Run

noncomputable section

namespace Cert.KernelIdeal.Layer

open Idealize.ShloMosaic Idealize.ShloMosaic.TcCoe Idealize.SL.Sem Idealize.ShloMosaic.StableHlo
open Cert.KernelIdeal Cert.KernelIdeal.Gen Cert.Spmm

variable {F : FTy → Type} [FloatOps F]

/-- The node table: the user rows, then the item rows. -/
def nodeTable (users : FVec F S100000x64 .f32) (items : FVec F S200000x64 .f32) : FVec F S300000x64 .f32 :=
  concatenate S300000x64 0 [⟨S100000x64, users⟩, ⟨S200000x64, items⟩] concatenates_S100000x64_S200000x64_S300000x64_d0

/-- The source index of every stored entry as a column: an index below zero is read from the end of the table. -/
def sourceColumn (cols : IVec S1280000 32) : IVec S1280000x1 32 :=
  broadcastInDim S1280000x1 ![0] bcast_S1280000_S1280000x1_0
    (select (cmpi .slt cols (broadcastInDim S1280000 ![] bcast_S_S1280000 (constantI S_ 32 0#32)))
      (addi cols (broadcastInDim S1280000 ![] bcast_S_S1280000 (constantI S_ 32 300000#32))) cols)

/-- One source row of the table per stored entry. -/
def gatherRows (x : FVec F S300000x64 .f32) (cols : IVec S1280000 32) : FVec F S1280000x64 .f32 :=
  Host.gather gather_S300000x64_S1280000x1_S1280000x64_1_0_n_n_0_1_164 x (sourceColumn cols)

/-- The per-entry rows added into a table of zeros, entry `e` into row `rows e`. -/
def segmentSum (rows : IVec S1280000 32) (u : FVec F S1280000x64 .f32) : FVec F S300000x64 .f32 :=
  Host.scatterAdd scatter_S300000x64_S1280000x1_S1280000x64_1_0_0_1
    (broadcastInDim S300000x64 ![] bcast_S_S300000x64 (constant S_ .f32 0x00000000#32))
    (broadcastInDim S1280000x1 ![0] bcast_S1280000_S1280000x1_0 rows) u

/-- One round: gather the source rows, scale each by its entry's value, sum them into their target rows. -/
def propagate (vals : FVec F S1280000 .f32) (rows cols : IVec S1280000 32) (x : FVec F S300000x64 .f32) :
    FVec F S300000x64 .f32 :=
  segmentSum rows (scaleRows (gatherRows x cols) vals)

/-- The first `100000` rows of a node table: the users'. -/
def userRows (x : FVec F S300000x64 .f32) : FVec F S100000x64 .f32 :=
  extractStridedSlice S100000x64 ![0, 0] x slices_S300000x64_S100000x64_0_0

/-- The last `200000` rows of a node table: the items'. -/
def itemRows (x : FVec F S300000x64 .f32) : FVec F S200000x64 .f32 :=
  extractStridedSlice S200000x64 ![100000, 0] x slices_S300000x64_S200000x64_100000_0

/-! ## What each stretch of host operations leaves, from any contents `W` -/

variable (W : Valuation τ sig (Elt F))

/-- The stretch before the first launch builds the node table … -/
theorem table0 : after hostOps0 W (Proc.devRef .tc main_v0)
    = nodeTable (W (Proc.devRef .tc main_arg1)) (W (Proc.devRef .tc main_arg2)) := by
  after_results; rfl

/-- … and gathers its source rows. -/
theorem gathered0 : after hostOps0 W (Proc.devRef .tc main_v7)
    = gatherRows (nodeTable (W (Proc.devRef .tc main_arg1)) (W (Proc.devRef .tc main_arg2))) (W (Proc.devRef .tc main_arg4)) := by
  after_results; rfl

/-- The stretch after the first weighting launch sums the weighted rows into their target rows. -/
theorem summed1 : after hostOps1 W (Proc.devRef .tc main_v11)
    = segmentSum (W (Proc.devRef .tc main_arg3)) (W (Proc.devRef .tc main_v8)) := by
  after_results; rfl

/-- The stretch before the second weighting launch gathers the source rows of the first round's result. -/
theorem gathered2 : after hostOps2 W (Proc.devRef .tc main_v19)
    = gatherRows (W (Proc.devRef .tc main_v11)) (W (Proc.devRef .tc main_arg4)) := by
  after_results; rfl

/-- The stretch after the second weighting launch sums the weighted rows into their target rows. -/
theorem summed3 : after hostOps3 W (Proc.devRef .tc main_v23)
    = segmentSum (W (Proc.devRef .tc main_arg3)) (W (Proc.devRef .tc main_v20)) := by
  after_results; rfl

/-- The stretch before the third weighting launch gathers the source rows of the second round's result. -/
theorem gathered4 : after hostOps4 W (Proc.devRef .tc main_v31)
    = gatherRows (W (Proc.devRef .tc main_v23)) (W (Proc.devRef .tc main_arg4)) := by
  after_results; rfl

/-- The stretch after the third weighting launch sums the weighted rows into their target rows. -/
theorem summed5 : after hostOps5 W (Proc.devRef .tc main_v35)
    = segmentSum (W (Proc.devRef .tc main_arg3)) (W (Proc.devRef .tc main_v32)) := by
  after_results; rfl

/-- The last stretch cuts the final layer sum into the users' rows … -/
theorem users6 : after hostOps6 W (Proc.devRef .tc main_v37) = userRows (W (Proc.devRef .tc main_v36)) := by
  after_results; rfl

/-- … and the items' rows. -/
theorem items6 : after hostOps6 W (Proc.devRef .tc main_v38) = itemRows (W (Proc.devRef .tc main_v36)) := by
  after_results; rfl

end Cert.KernelIdeal.Layer

end
-- ==== Proof.Weigh0.lean ====
/-
  The first weighting launch, whole. The launch walks the 1 280 000 stored entries in 50 blocks of 25 600 rows: at
  block `t` it fetches rows `25600·t … 25600·t + 25599` of the gathered matrix and the same stretch of the value
  vector, and writes back the rows scaled by their values. Block `t` of the result is therefore block `t` of ONE
  whole-array function, the gathered matrix with every row `e` scaled by `v e`; the 50 blocks tile the array (row `e`
  lies in block `e / 25600`), so that function is what the result array holds when the launch ends.
-/
import proofs.«132044_j74156905333132_1_alg».proof.Proof.Gen.KernelIdeal.Frame
import proofs.«132044_j74156905333132_1_alg».proof.Proof.RowScale

set_option maxRecDepth 16384

noncomputable section

namespace Cert.KernelIdeal.Weigh0

open Idealize.ShloMosaic Idealize.ShloMosaic.TcCoe Idealize.ShloMosaic.ValueIdx Idealize.SL.Sem
open Idealize.ShloMosaic.Pipeline (Dat)
open Cert.KernelIdeal Cert.KernelIdeal.Gen Cert.Spmm

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: at point `t` every window sits at row block `t`, column block 0. -/
theorem blockIndex : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

/-- The body's payload is its block of the matrix with every row scaled by its entry of the block of values. -/
theorem payload_eq (v0 : Vec F S25600 .f32) (v1 : Vec F S25600x64 .f32) : k0_pay1 v0 v1 = scaleRows v1 v0 := by
  unfold k0_pay1
  exact mulf_column_eq v1 v0 _ _ _

/-- What point `t` writes back is block `t` of the scaled matrix. -/
theorem flushed_eq (c : Dev nD) (t : Fin cfg0.N) :
    (dat0 V c).flushed 2 t = ((cfg0.win 2).blk t).view.read (Elt F) (scaleRows (V c main_v7) (V c main_arg0)) := by
  show (cfg0.win 2).cut (grid0.coords t) ((dat0 V c).after 2 t) = _
  rw [after0_2]
  unfold out0_2
  rw [View.canon_unit_zero zero2]
  simp only [View.ld_unit_zero (S := S25600x64) zero2, View.ld_unit_zero (S := S25600) zero1]
  rw [payload_eq]
  obtain ⟨e0, e1, e2, e3, e4⟩ := blockIndex t
  funext j
  show FloatOps.mulf (V c main_v7 (((cfg0.win 0).blk t).view.emb j)) (V c main_arg0 (((cfg0.win 1).blk t).view.emb (ix1 (j 0))))
    = FloatOps.mulf (V c main_v7 (((cfg0.win 2).blk t).view.emb j)) (V c main_arg0 (ix1 ((((cfg0.win 2).blk t).view.emb j) 0)))
  have h0 : ((cfg0.win 0).blk t).view.emb j = ((cfg0.win 2).blk t).view.emb j := by
    funext a; apply Fin.ext
    match a with
    | ⟨0, _⟩ => show win0_0.index t (0 : Fin 2) * 25600 + 1 * (j 0).val = win0_2.index t (0 : Fin 2) * 25600 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix1 (j 0)) = ix1 ((((cfg0.win 2).blk t).view.emb j) 0) := by
    funext a; apply Fin.ext
    match a with
    | ⟨0, _⟩ => show win0_1.index t (0 : Fin 1) * 25600 + 1 * (j 0).val = win0_2.index t (0 : Fin 2) * 25600 + 1 * (j 0).val; omega
  rw [h0, h1]
  rfl

/-- An index of the result array is in point `t`'s block iff each coordinate is in the block's range on its axis. -/
theorem mem_block (t : Fin cfg0.N) (i : S1280000x64.Idx) :
    i ∈ ((cfg0.win 2).blk t).view.set ↔ ∀ a : Fin 2, win0_2.index t a * S25600x64.size a ≤ (i a).val ∧ (i a).val < win0_2.index t a * S25600x64.size a + S25600x64.size a := by
  show i ∈ ((View.whole main_v8).slice (win0_2.rect t)).set ↔ _
  rw [View.set_slice_whole, Rect.mem_set_unit]
  exact Iff.rfl

/-- Every row of the result lies in some point's block: row `e` in block `e / 25600`. -/
theorem covered (i : S1280000x64.Idx) : ∃ t : Fin cfg0.N, (cfg0.win 2).flush t = true ∧ i ∈ ((cfg0.win 2).blk t).view.set := by
  have hi0 : (i 0).val < 1280000 := (i 0).isLt
  have hi1 : (i 1).val < 64 := (i 1).isLt
  have hN : grid0.N = 50 := N_0
  let t : Fin cfg0.N := ⟨(i 0).val / 25600, by show (i 0).val / 25600 < grid0.N; omega⟩
  obtain ⟨-, -, -, e3, e4⟩ := blockIndex t
  have ht : t.val = (i 0).val / 25600 := rfl
  refine ⟨t, flush0_2 t, ?_⟩
  rw [mem_block]
  intro a
  match a with
  | ⟨0, _⟩ => show win0_2.index t (0 : Fin 2) * 25600 ≤ (i 0).val ∧ (i 0).val < win0_2.index t (0 : Fin 2) * 25600 + 25600; omega
  | ⟨1, _⟩ => show win0_2.index t (1 : Fin 2) * 64 ≤ (i 1).val ∧ (i 1).val < win0_2.index t (1 : Fin 2) * 64 + 64; omega

/-- The result array after the launch: the gathered matrix, every row scaled by its entry's value. -/
theorem final (c : Dev nD) : (dat0 V c).arrAt 2 cfg0.N = scaleRows (V c main_v7) (V c main_arg0) :=
  (dat0 V c).arrAt_eq_of_cover 2 _ (fun t _ => flushed_eq V c t) covered

end Cert.KernelIdeal.Weigh0

end
-- ==== Proof.Weigh2.lean ====
/-
  The second weighting launch, whole. The launch walks the 1 280 000 stored entries in 50 blocks of 25 600 rows: at
  block `t` it fetches rows `25600·t … 25600·t + 25599` of the gathered matrix and the same stretch of the value
  vector, and writes back the rows scaled by their values. Block `t` of the result is therefore block `t` of ONE
  whole-array function, the gathered matrix with every row `e` scaled by `v e`; the 50 blocks tile the array (row `e`
  lies in block `e / 25600`), so that function is what the result array holds when the launch ends.
-/
import proofs.«132044_j74156905333132_1_alg».proof.Proof.Gen.KernelIdeal.Frame
import proofs.«132044_j74156905333132_1_alg».proof.Proof.RowScale

set_option maxRecDepth 16384

noncomputable section

namespace Cert.KernelIdeal.Weigh2

open Idealize.ShloMosaic Idealize.ShloMosaic.TcCoe Idealize.ShloMosaic.ValueIdx Idealize.SL.Sem
open Idealize.ShloMosaic.Pipeline (Dat)
open Cert.KernelIdeal Cert.KernelIdeal.Gen Cert.Spmm

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: at point `t` every window sits at row block `t`, column block 0. -/
theorem blockIndex : ∀ t : Fin cfg2.N, win2_0.index t (0 : Fin 2) = t.val ∧ win2_0.index t (1 : Fin 2) = 0
    ∧ win2_1.index t (0 : Fin 1) = t.val
    ∧ win2_2.index t (0 : Fin 2) = t.val ∧ win2_2.index t (1 : Fin 2) = 0 :=
  (by decide +kernel : ∀ t : Fin grid2.N, _)

/-- The body's payload is its block of the matrix with every row scaled by its entry of the block of values. -/
theorem payload_eq (v0 : Vec F S25600 .f32) (v1 : Vec F S25600x64 .f32) : k2_pay1 v0 v1 = scaleRows v1 v0 := by
  unfold k2_pay1
  exact mulf_column_eq v1 v0 _ _ _

/-- What point `t` writes back is block `t` of the scaled matrix. -/
theorem flushed_eq (c : Dev nD) (t : Fin cfg2.N) :
    (dat2 V c).flushed 2 t = ((cfg2.win 2).blk t).view.read (Elt F) (scaleRows (V c main_v19) (V c main_arg0)) := by
  show (cfg2.win 2).cut (grid2.coords t) ((dat2 V c).after 2 t) = _
  rw [after2_2]
  unfold out2_2
  rw [View.canon_unit_zero zero2]
  simp only [View.ld_unit_zero (S := S25600x64) zero2, View.ld_unit_zero (S := S25600) zero1]
  rw [payload_eq]
  obtain ⟨e0, e1, e2, e3, e4⟩ := blockIndex t
  funext j
  show FloatOps.mulf (V c main_v19 (((cfg2.win 0).blk t).view.emb j)) (V c main_arg0 (((cfg2.win 1).blk t).view.emb (ix1 (j 0))))
    = FloatOps.mulf (V c main_v19 (((cfg2.win 2).blk t).view.emb j)) (V c main_arg0 (ix1 ((((cfg2.win 2).blk t).view.emb j) 0)))
  have h0 : ((cfg2.win 0).blk t).view.emb j = ((cfg2.win 2).blk t).view.emb j := by
    funext a; apply Fin.ext
    match a with
    | ⟨0, _⟩ => show win2_0.index t (0 : Fin 2) * 25600 + 1 * (j 0).val = win2_2.index t (0 : Fin 2) * 25600 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix1 (j 0)) = ix1 ((((cfg2.win 2).blk t).view.emb j) 0) := by
    funext a; apply Fin.ext
    match a with
    | ⟨0, _⟩ => show win2_1.index t (0 : Fin 1) * 25600 + 1 * (j 0).val = win2_2.index t (0 : Fin 2) * 25600 + 1 * (j 0).val; omega
  rw [h0, h1]
  rfl

/-- An index of the result array is in point `t`'s block iff each coordinate is in the block's range on its axis. -/
theorem mem_block (t : Fin cfg2.N) (i : S1280000x64.Idx) :
    i ∈ ((cfg2.win 2).blk t).view.set ↔ ∀ a : Fin 2, win2_2.index t a * S25600x64.size a ≤ (i a).val ∧ (i a).val < win2_2.index t a * S25600x64.size a + S25600x64.size a := by
  show i ∈ ((View.whole main_v20).slice (win2_2.rect t)).set ↔ _
  rw [View.set_slice_whole, Rect.mem_set_unit]
  exact Iff.rfl

/-- Every row of the result lies in some point's block: row `e` in block `e / 25600`. -/
theorem covered (i : S1280000x64.Idx) : ∃ t : Fin cfg2.N, (cfg2.win 2).flush t = true ∧ i ∈ ((cfg2.win 2).blk t).view.set := by
  have hi0 : (i 0).val < 1280000 := (i 0).isLt
  have hi1 : (i 1).val < 64 := (i 1).isLt
  have hN : grid2.N = 50 := N_2
  let t : Fin cfg2.N := ⟨(i 0).val / 25600, by show (i 0).val / 25600 < grid2.N; omega⟩
  obtain ⟨-, -, -, e3, e4⟩ := blockIndex t
  have ht : t.val = (i 0).val / 25600 := rfl
  refine ⟨t, flush2_2 t, ?_⟩
  rw [mem_block]
  intro a
  match a with
  | ⟨0, _⟩ => show win2_2.index t (0 : Fin 2) * 25600 ≤ (i 0).val ∧ (i 0).val < win2_2.index t (0 : Fin 2) * 25600 + 25600; omega
  | ⟨1, _⟩ => show win2_2.index t (1 : Fin 2) * 64 ≤ (i 1).val ∧ (i 1).val < win2_2.index t (1 : Fin 2) * 64 + 64; omega

/-- The result array after the launch: the gathered matrix, every row scaled by its entry's value. -/
theorem final (c : Dev nD) : (dat2 V c).arrAt 2 cfg2.N = scaleRows (V c main_v19) (V c main_arg0) :=
  (dat2 V c).arrAt_eq_of_cover 2 _ (fun t _ => flushed_eq V c t) covered

end Cert.KernelIdeal.Weigh2

end
-- ==== Proof.Weigh4.lean ====
/-
  The third weighting launch, whole. The launch walks the 1 280 000 stored entries in 50 blocks of 25 600 rows: at
  block `t` it fetches rows `25600·t … 25600·t + 25599` of the gathered matrix and the same stretch of the value
  vector, and writes back the rows scaled by their values. Block `t` of the result is therefore block `t` of ONE
  whole-array function, the gathered matrix with every row `e` scaled by `v e`; the 50 blocks tile the array (row `e`
  lies in block `e / 25600`), so that function is what the result array holds when the launch ends.
-/
import proofs.«132044_j74156905333132_1_alg».proof.Proof.Gen.KernelIdeal.Frame
import proofs.«132044_j74156905333132_1_alg».proof.Proof.RowScale

set_option maxRecDepth 16384

noncomputable section

namespace Cert.KernelIdeal.Weigh4

open Idealize.ShloMosaic Idealize.ShloMosaic.TcCoe Idealize.ShloMosaic.ValueIdx Idealize.SL.Sem
open Idealize.ShloMosaic.Pipeline (Dat)
open Cert.KernelIdeal Cert.KernelIdeal.Gen Cert.Spmm

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: at point `t` every window sits at row block `t`, column block 0. -/
theorem blockIndex : ∀ t : Fin cfg4.N, win4_0.index t (0 : Fin 2) = t.val ∧ win4_0.index t (1 : Fin 2) = 0
    ∧ win4_1.index t (0 : Fin 1) = t.val
    ∧ win4_2.index t (0 : Fin 2) = t.val ∧ win4_2.index t (1 : Fin 2) = 0 :=
  (by decide +kernel : ∀ t : Fin grid4.N, _)

/-- The body's payload is its block of the matrix with every row scaled by its entry of the block of values. -/
theorem payload_eq (v0 : Vec F S25600 .f32) (v1 : Vec F S25600x64 .f32) : k4_pay1 v0 v1 = scaleRows v1 v0 := by
  unfold k4_pay1
  exact mulf_column_eq v1 v0 _ _ _

/-- What point `t` writes back is block `t` of the scaled matrix. -/
theorem flushed_eq (c : Dev nD) (t : Fin cfg4.N) :
    (dat4 V c).flushed 2 t = ((cfg4.win 2).blk t).view.read (Elt F) (scaleRows (V c main_v31) (V c main_arg0)) := by
  show (cfg4.win 2).cut (grid4.coords t) ((dat4 V c).after 2 t) = _
  rw [after4_2]
  unfold out4_2
  rw [View.canon_unit_zero zero2]
  simp only [View.ld_unit_zero (S := S25600x64) zero2, View.ld_unit_zero (S := S25600) zero1]
  rw [payload_eq]
  obtain ⟨e0, e1, e2, e3, e4⟩ := blockIndex t
  funext j
  show FloatOps.mulf (V c main_v31 (((cfg4.win 0).blk t).view.emb j)) (V c main_arg0 (((cfg4.win 1).blk t).view.emb (ix1 (j 0))))
    = FloatOps.mulf (V c main_v31 (((cfg4.win 2).blk t).view.emb j)) (V c main_arg0 (ix1 ((((cfg4.win 2).blk t).view.emb j) 0)))
  have h0 : ((cfg4.win 0).blk t).view.emb j = ((cfg4.win 2).blk t).view.emb j := by
    funext a; apply Fin.ext
    match a with
    | ⟨0, _⟩ => show win4_0.index t (0 : Fin 2) * 25600 + 1 * (j 0).val = win4_2.index t (0 : Fin 2) * 25600 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix1 (j 0)) = ix1 ((((cfg4.win 2).blk t).view.emb j) 0) := by
    funext a; apply Fin.ext
    match a with
    | ⟨0, _⟩ => show win4_1.index t (0 : Fin 1) * 25600 + 1 * (j 0).val = win4_2.index t (0 : Fin 2) * 25600 + 1 * (j 0).val; omega
  rw [h0, h1]
  rfl

/-- An index of the result array is in point `t`'s block iff each coordinate is in the block's range on its axis. -/
theorem mem_block (t : Fin cfg4.N) (i : S1280000x64.Idx) :
    i ∈ ((cfg4.win 2).blk t).view.set ↔ ∀ a : Fin 2, win4_2.index t a * S25600x64.size a ≤ (i a).val ∧ (i a).val < win4_2.index t a * S25600x64.size a + S25600x64.size a := by
  show i ∈ ((View.whole main_v32).slice (win4_2.rect t)).set ↔ _
  rw [View.set_slice_whole, Rect.mem_set_unit]
  exact Iff.rfl

/-- Every row of the result lies in some point's block: row `e` in block `e / 25600`. -/
theorem covered (i : S1280000x64.Idx) : ∃ t : Fin cfg4.N, (cfg4.win 2).flush t = true ∧ i ∈ ((cfg4.win 2).blk t).view.set := by
  have hi0 : (i 0).val < 1280000 := (i 0).isLt
  have hi1 : (i 1).val < 64 := (i 1).isLt
  have hN : grid4.N = 50 := N_4
  let t : Fin cfg4.N := ⟨(i 0).val / 25600, by show (i 0).val / 25600 < grid4.N; omega⟩
  obtain ⟨-, -, -, e3, e4⟩ := blockIndex t
  have ht : t.val = (i 0).val / 25600 := rfl
  refine ⟨t, flush4_2 t, ?_⟩
  rw [mem_block]
  intro a
  match a with
  | ⟨0, _⟩ => show win4_2.index t (0 : Fin 2) * 25600 ≤ (i 0).val ∧ (i 0).val < win4_2.index t (0 : Fin 2) * 25600 + 25600; omega
  | ⟨1, _⟩ => show win4_2.index t (1 : Fin 2) * 64 ≤ (i 1).val ∧ (i 1).val < win4_2.index t (1 : Fin 2) * 64 + 64; omega

/-- The result array after the launch: the gathered matrix, every row scaled by its entry's value. -/
theorem final (c : Dev nD) : (dat4 V c).arrAt 2 cfg4.N = scaleRows (V c main_v31) (V c main_arg0) :=
  (dat4 V c).arrAt_eq_of_cover 2 _ (fun t _ => flushed_eq V c t) covered

end Cert.KernelIdeal.Weigh4

end
-- ==== Proof.Accum1.lean ====
/-
  The first accumulation launch, whole. The launch walks the 300 000 node rows in 30 blocks of 10 000 rows: at block `t`
  it fetches rows `10000·t … 10000·t + 9999` of the running layer sum and of the newest layer, and writes back their
  entrywise sum. Block `t` of the result is therefore block `t` of the entrywise sum of the two whole arrays; the 30
  blocks tile the array (row `r` lies in block `r / 10000`), so that sum is what the result array holds when the launch
  ends.
-/
import proofs.«132044_j74156905333132_1_alg».proof.Proof.Gen.KernelIdeal.Frame
import Idealize.ShloMosaic.Lib.Pipeline.Value

set_option maxRecDepth 16384

noncomputable section

namespace Cert.KernelIdeal.Accum1

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- The printed index maps over the grid: at point `t` every window sits at row block `t`, column block 0. -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's payload is the entrywise sum of its two loaded blocks (the casts between equal shapes are the identity). -/
theorem payload_eq (x0 x1 : Vec F S10000x64 .f32) : k1_pay1 x0 x1 = addf x0 x1 := by
  unfold k1_pay1
  show addf (shapeCast S10000x64 x0 _) (shapeCast S10000x64 x1 _) = addf x0 x1
  rw [shapeCast_self, shapeCast_self]

/-- What point `t` writes back is block `t` of the entrywise sum of the two arrays. -/
theorem flushed_eq (c : Dev nD) (t : Fin cfg1.N) :
    (dat1 V c).flushed 2 t = ((cfg1.win 2).blk t).view.read (Elt F) (addf (V c main_v0) (V c main_v11)) := by
  show (cfg1.win 2).cut (grid1.coords t) ((dat1 V c).after 2 t) = _
  rw [after1_2]
  unfold out1_2
  rw [View.canon_unit_zero zero2]
  simp only [View.ld_unit_zero (S := S10000x64) zero2]
  rw [payload_eq]
  obtain ⟨e0, e1, e2, e3, e4, e5⟩ := blockIndex t
  funext j
  show FloatOps.addf (V c main_v0 (((cfg1.win 0).blk t).view.emb j)) (V c main_v11 (((cfg1.win 1).blk t).view.emb j))
    = FloatOps.addf (V c main_v0 (((cfg1.win 2).blk t).view.emb j)) (V c main_v11 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index of the result array is in point `t`'s block iff each coordinate is in the block's range on its axis. -/
theorem mem_block (t : Fin cfg1.N) (i : S300000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v12).slice (win1_2.rect t)).set ↔ _
  rw [View.set_slice_whole, Rect.mem_set_unit]
  exact Iff.rfl

/-- Every row of the result lies in some point's block: row `r` in block `r / 10000`. -/
theorem covered (i : S300000x64.Idx) : ∃ t : Fin cfg1.N, (cfg1.win 2).flush t = true ∧ i ∈ ((cfg1.win 2).blk t).view.set := by
  have hi0 : (i 0).val < 300000 := (i 0).isLt
  have hi1 : (i 1).val < 64 := (i 1).isLt
  have hN : grid1.N = 30 := N_1
  let t : Fin cfg1.N := ⟨(i 0).val / 10000, by show (i 0).val / 10000 < grid1.N; omega⟩
  obtain ⟨-, -, -, -, e4, e5⟩ := blockIndex t
  have ht : t.val = (i 0).val / 10000 := rfl
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch: the entrywise sum of the running layer sum and the newest layer. -/
theorem final (c : Dev nD) : (dat1 V c).arrAt 2 cfg1.N = addf (V c main_v0) (V c main_v11) :=
  (dat1 V c).arrAt_eq_of_cover 2 _ (fun t _ => flushed_eq V c t) covered

end Cert.KernelIdeal.Accum1

end
-- ==== Proof.Accum3.lean ====
/-
  The second accumulation launch, whole. The launch walks the 300 000 node rows in 30 blocks of 10 000 rows: at block `t`
  it fetches rows `10000·t … 10000·t + 9999` of the running layer sum and of the newest layer, and writes back their
  entrywise sum. Block `t` of the result is therefore block `t` of the entrywise sum of the two whole arrays; the 30
  blocks tile the array (row `r` lies in block `r / 10000`), so that sum is what the result array holds when the launch
  ends.
-/
import proofs.«132044_j74156905333132_1_alg».proof.Proof.Gen.KernelIdeal.Frame
import Idealize.ShloMosaic.Lib.Pipeline.Value

set_option maxRecDepth 16384

noncomputable section

namespace Cert.KernelIdeal.Accum3

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- The printed index maps over the grid: at point `t` every window sits at row block `t`, column block 0. -/
theorem blockIndex : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body's payload is the entrywise sum of its two loaded blocks (the casts between equal shapes are the identity). -/
theorem payload_eq (x0 x1 : Vec F S10000x64 .f32) : k3_pay1 x0 x1 = addf x0 x1 := by
  unfold k3_pay1
  show addf (shapeCast S10000x64 x0 _) (shapeCast S10000x64 x1 _) = addf x0 x1
  rw [shapeCast_self, shapeCast_self]

/-- What point `t` writes back is block `t` of the entrywise sum of the two arrays. -/
theorem flushed_eq (c : Dev nD) (t : Fin cfg3.N) :
    (dat3 V c).flushed 2 t = ((cfg3.win 2).blk t).view.read (Elt F) (addf (V c main_v12) (V c main_v23)) := by
  show (cfg3.win 2).cut (grid3.coords t) ((dat3 V c).after 2 t) = _
  rw [after3_2]
  unfold out3_2
  rw [View.canon_unit_zero zero2]
  simp only [View.ld_unit_zero (S := S10000x64) zero2]
  rw [payload_eq]
  obtain ⟨e0, e1, e2, e3, e4, e5⟩ := blockIndex t
  funext j
  show FloatOps.addf (V c main_v12 (((cfg3.win 0).blk t).view.emb j)) (V c main_v23 (((cfg3.win 1).blk t).view.emb j))
    = FloatOps.addf (V c main_v12 (((cfg3.win 2).blk t).view.emb j)) (V c main_v23 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  rw [h0, h1]

/-- An index of the result array is in point `t`'s block iff each coordinate is in the block's range on its axis. -/
theorem mem_block (t : Fin cfg3.N) (i : S300000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v24).slice (win3_2.rect t)).set ↔ _
  rw [View.set_slice_whole, Rect.mem_set_unit]
  exact Iff.rfl

/-- Every row of the result lies in some point's block: row `r` in block `r / 10000`. -/
theorem covered (i : S300000x64.Idx) : ∃ t : Fin cfg3.N, (cfg3.win 2).flush t = true ∧ i ∈ ((cfg3.win 2).blk t).view.set := by
  have hi0 : (i 0).val < 300000 := (i 0).isLt
  have hi1 : (i 1).val < 64 := (i 1).isLt
  have hN : grid3.N = 30 := N_3
  let t : Fin cfg3.N := ⟨(i 0).val / 10000, by show (i 0).val / 10000 < grid3.N; omega⟩
  obtain ⟨-, -, -, -, e4, e5⟩ := blockIndex t
  have ht : t.val = (i 0).val / 10000 := rfl
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch: the entrywise sum of the running layer sum and the newest layer. -/
theorem final (c : Dev nD) : (dat3 V c).arrAt 2 cfg3.N = addf (V c main_v12) (V c main_v23) :=
  (dat3 V c).arrAt_eq_of_cover 2 _ (fun t _ => flushed_eq V c t) covered

end Cert.KernelIdeal.Accum3

end
-- ==== Proof.Accum5.lean ====
/-
  The third accumulation launch, whole. The launch walks the 300 000 node rows in 30 blocks of 10 000 rows: at block `t`
  it fetches rows `10000·t … 10000·t + 9999` of the running layer sum and of the newest layer, and writes back their
  entrywise sum. Block `t` of the result is therefore block `t` of the entrywise sum of the two whole arrays; the 30
  blocks tile the array (row `r` lies in block `r / 10000`), so that sum is what the result array holds when the launch
  ends.
-/
import proofs.«132044_j74156905333132_1_alg».proof.Proof.Gen.KernelIdeal.Frame
import Idealize.ShloMosaic.Lib.Pipeline.Value

set_option maxRecDepth 16384

noncomputable section

namespace Cert.KernelIdeal.Accum5

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- The printed index maps over the grid: at point `t` every window sits at row block `t`, column block 0. -/
theorem blockIndex : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The body's payload is the entrywise sum of its two loaded blocks (the casts between equal shapes are the identity). -/
theorem payload_eq (x0 x1 : Vec F S10000x64 .f32) : k5_pay1 x0 x1 = addf x0 x1 := by
  unfold k5_pay1
  show addf (shapeCast S10000x64 x0 _) (shapeCast S10000x64 x1 _) = addf x0 x1
  rw [shapeCast_self, shapeCast_self]

/-- What point `t` writes back is block `t` of the entrywise sum of the two arrays. -/
theorem flushed_eq (c : Dev nD) (t : Fin cfg5.N) :
    (dat5 V c).flushed 2 t = ((cfg5.win 2).blk t).view.read (Elt F) (addf (V c main_v24) (V c main_v35)) := by
  show (cfg5.win 2).cut (grid5.coords t) ((dat5 V c).after 2 t) = _
  rw [after5_2]
  unfold out5_2
  rw [View.canon_unit_zero zero2]
  simp only [View.ld_unit_zero (S := S10000x64) zero2]
  rw [payload_eq]
  obtain ⟨e0, e1, e2, e3, e4, e5⟩ := blockIndex t
  funext j
  show FloatOps.addf (V c main_v24 (((cfg5.win 0).blk t).view.emb j)) (V c main_v35 (((cfg5.win 1).blk t).view.emb j))
    = FloatOps.addf (V c main_v24 (((cfg5.win 2).blk t).view.emb j)) (V c main_v35 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  rw [h0, h1]

/-- An index of the result array is in point `t`'s block iff each coordinate is in the block's range on its axis. -/
theorem mem_block (t : Fin cfg5.N) (i : S300000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v36).slice (win5_2.rect t)).set ↔ _
  rw [View.set_slice_whole, Rect.mem_set_unit]
  exact Iff.rfl

/-- Every row of the result lies in some point's block: row `r` in block `r / 10000`. -/
theorem covered (i : S300000x64.Idx) : ∃ t : Fin cfg5.N, (cfg5.win 2).flush t = true ∧ i ∈ ((cfg5.win 2).blk t).view.set := by
  have hi0 : (i 0).val < 300000 := (i 0).isLt
  have hi1 : (i 1).val < 64 := (i 1).isLt
  have hN : grid5.N = 30 := N_5
  let t : Fin cfg5.N := ⟨(i 0).val / 10000, by show (i 0).val / 10000 < grid5.N; omega⟩
  obtain ⟨-, -, -, -, e4, e5⟩ := blockIndex t
  have ht : t.val = (i 0).val / 10000 := rfl
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The result array after the launch: the entrywise sum of the running layer sum and the newest layer. -/
theorem final (c : Dev nD) : (dat5 V c).arrAt 2 cfg5.N = addf (V c main_v24) (V c main_v35) :=
  (dat5 V c).arrAt_eq_of_cover 2 _ (fun t _ => flushed_eq V c t) covered

end Cert.KernelIdeal.Accum5

end
-- ==== Proof.Fold.lean ====
/-
  The contents of the two result buffers of the idealized kernel program, as a function of its arguments.

  @main is thirteen segments: seven stretches of host operations and, between them, six launches. Written with the
  node table `T` (the user rows, then the item rows) and one round of message passing `P` (gather the source rows,
  scale each by its entry's value, add it into its target row), the buffers hold, segment by segment:

      stretch 0   the table `T` and its gathered rows          launch 0   those rows scaled by the entries' values
      stretch 1   `P T`, the scaled rows summed by target        launch 1   `T + P T`
      stretch 2   the gathered rows of `P T`                     launch 2   those rows scaled
      stretch 3   `P (P T)`                                      launch 3   `T + P T + P (P T)`
      stretch 4   the gathered rows of `P (P T)`                 launch 4   those rows scaled
      stretch 5   `P (P (P T))`                                  launch 5   `T + P T + P (P T) + P (P (P T))`
      stretch 6   the users' rows and the items' rows of that sum

  Each line below is one buffer at one boundary. A stretch's result is read off its operations; a launch's result is
  its whole-array function of the arrays it was entered with; and a buffer that a segment does not write is carried
  across it unchanged, which is how the three arguments a later segment reads (the entries' values, target rows and
  source rows) and the running sums reach the segment that reads them.
-/
import proofs.«132044_j74156905333132_1_alg».proof.Proof.Gen.KernelIdeal.Frame
import proofs.«132044_j74156905333132_1_alg».proof.Proof.Layer
import proofs.«132044_j74156905333132_1_alg».proof.Proof.Weigh0
import proofs.«132044_j74156905333132_1_alg».proof.Proof.Weigh2
import proofs.«132044_j74156905333132_1_alg».proof.Proof.Weigh4
import proofs.«132044_j74156905333132_1_alg».proof.Proof.Accum1
import proofs.«132044_j74156905333132_1_alg».proof.Proof.Accum3
import proofs.«132044_j74156905333132_1_alg».proof.Proof.Accum5

set_option maxRecDepth 16384

noncomputable section

namespace Cert.KernelIdeal.Fold

open Idealize.ShloMosaic Idealize.ShloMosaic.TcCoe Idealize.SL.Sem
open Cert.KernelIdeal Cert.KernelIdeal.Gen Cert.KernelIdeal.Layer Cert.Spmm

variable {F : FTy → Type} [FloatOps F]
variable (m : (ℓ : Loc nD τ sig) → Buf (Elt F) ℓ) (ρ : Dev nD → PrngReg)

/-! ## The arguments, and the sums the program builds from them -/

/-- The stored entries' values. -/
abbrev vals (c : Dev nD) : FVec F S1280000 .f32 := m ((c : Thread nD τ).loc main_arg0)
/-- The stored entries' target rows. -/
abbrev rows (c : Dev nD) : IVec S1280000 32 := m ((c : Thread nD τ).loc main_arg3)
/-- The stored entries' source rows. -/
abbrev cols (c : Dev nD) : IVec S1280000 32 := m ((c : Thread nD τ).loc main_arg4)

/-- The node table `T`. -/
def table (c : Dev nD) : FVec F S300000x64 .f32 :=
  nodeTable (m ((c : Thread nD τ).loc main_arg1)) (m ((c : Thread nD τ).loc main_arg2))

/-- One round `P` of message passing over the stored entries. -/
def round (c : Dev nD) (x : FVec F S300000x64 .f32) : FVec F S300000x64 .f32 :=
  propagate (vals m c) (rows m c) (cols m c) x

/-- `T + P T + P (P T) + P (P (P T))`, summed in that order. -/
def total (c : Dev nD) : FVec F S300000x64 .f32 :=
  addf (addf (addf (table m c) (round m c (table m c))) (round m c (round m c (table m c))))
    (round m c (round m c (round m c (table m c))))

/-- A round is the target-row sum of the scaled gathered rows. -/
theorem round_eq (c : Dev nD) (x : FVec F S300000x64 .f32) :
    round m c x = segmentSum (rows m c) (scaleRows (gatherRows x (cols m c)) (vals m c)) := rfl

/-! ## Carrying a buffer across a segment that does not write it -/

/-- A buffer none of a stretch's operations writes holds after the stretch what it held before. -/
local macro "host_keeps " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The three arguments later segments read, at the contents `W` of a boundary: still as launched. -/
def Kept (c : Dev nD) (W : Valuation τ sig (Elt F)) : Prop :=
  W (Proc.devRef .tc main_arg0) = vals m c ∧ W (Proc.devRef .tc main_arg3) = rows m c ∧ W (Proc.devRef .tc main_arg4) = cols m c

/-! ## Stretch 0 and launch 0 -/

theorem kept1 (c : Dev nD) : Kept m c (W1 m ρ c) :=
  ⟨host_keeps hostOps0, host_keeps hostOps0, host_keeps hostOps0⟩

theorem table1 (c : Dev nD) : W1 m ρ c (Proc.devRef .tc main_v0) = table m c := table0 (W0 m ρ c)

theorem gathered1 (c : Dev nD) : W1 m ρ c (Proc.devRef .tc main_v7) = gatherRows (table m c) (cols m c) :=
  gathered0 (W0 m ρ c)

theorem kept2 (c : Dev nD) : Kept m c (W2 m ρ c) :=
  ⟨((W2_arr m ρ c 1).trans (((dat0 (V1 m ρ) c).arrAt_in 1 rfl _).trans (A_eq0 (V1 m ρ) c 1))).trans (kept1 m ρ c).1,
   (W2_of_ne m ρ c main_arg3 (by decide)).trans (kept1 m ρ c).2.1,
   (W2_of_ne m ρ c main_arg4 (by decide)).trans (kept1 m ρ c).2.2⟩

theorem table2 (c : Dev nD) : W2 m ρ c (Proc.devRef .tc main_v0) = table m c :=
  (W2_of_ne m ρ c main_v0 (by decide)).trans (table1 m ρ c)

theorem scaled2 (c : Dev nD) :
    W2 m ρ c (Proc.devRef .tc main_v8) = scaleRows (gatherRows (table m c) (cols m c)) (vals m c) := by
  refine (W2_arr m ρ c 2).trans ((Weigh0.final (V1 m ρ) c).trans ?_)
  show scaleRows (W1 m ρ c (Proc.devRef .tc main_v7)) (W1 m ρ c (Proc.devRef .tc main_arg0)) = _
  rw [gathered1, (kept1 m ρ c).1]

/-! ## Stretch 1 and launch 1 -/

theorem kept3 (c : Dev nD) : Kept m c (W3 m ρ c) :=
  ⟨(host_keeps hostOps1).trans (kept2 m ρ c).1, (host_keeps hostOps1).trans (kept2 m ρ c).2.1,
   (host_keeps hostOps1).trans (kept2 m ρ c).2.2⟩

theorem table3 (c : Dev nD) : W3 m ρ c (Proc.devRef .tc main_v0) = table m c :=
  (host_keeps hostOps1).trans (table2 m ρ c)

theorem layer3 (c : Dev nD) : W3 m ρ c (Proc.devRef .tc main_v11) = round m c (table m c) := by
  refine (summed1 (W2 m ρ c)).trans ?_
  rw [(kept2 m ρ c).2.1, scaled2, round_eq]

theorem kept4 (c : Dev nD) : Kept m c (W4 m ρ c) :=
  ⟨(W4_of_ne m ρ c main_arg0 (by decide)).trans (kept3 m ρ c).1,
   (W4_of_ne m ρ c main_arg3 (by decide)).trans (kept3 m ρ c).2.1,
   (W4_of_ne m ρ c main_arg4 (by decide)).trans (kept3 m ρ c).2.2⟩

theorem layer4 (c : Dev nD) : W4 m ρ c (Proc.devRef .tc main_v11) = round m c (table m c) :=
  ((W4_arr m ρ c 1).trans (((dat1 (V3 m ρ) c).arrAt_in 1 rfl _).trans (A_eq1 (V3 m ρ) c 1))).trans (layer3 m ρ c)

theorem sum4 (c : Dev nD) :
    W4 m ρ c (Proc.devRef .tc main_v12) = addf (table m c) (round m c (table m c)) := by
  refine (W4_arr m ρ c 2).trans ((Accum1.final (V3 m ρ) c).trans ?_)
  show addf (W3 m ρ c (Proc.devRef .tc main_v0)) (W3 m ρ c (Proc.devRef .tc main_v11)) = _
  rw [table3, layer3]

/-! ## Stretch 2 and launch 2 -/

theorem kept5 (c : Dev nD) : Kept m c (W5 m ρ c) :=
  ⟨(host_keeps hostOps2).trans (kept4 m ρ c).1, (host_keeps hostOps2).trans (kept4 m ρ c).2.1,
   (host_keeps hostOps2).trans (kept4 m ρ c).2.2⟩

theorem sum5 (c : Dev nD) :
    W5 m ρ c (Proc.devRef .tc main_v12) = addf (table m c) (round m c (table m c)) :=
  (host_keeps hostOps2).trans (sum4 m ρ c)

theorem gathered5 (c : Dev nD) :
    W5 m ρ c (Proc.devRef .tc main_v19) = gatherRows (round m c (table m c)) (cols m c) := by
  refine (gathered2 (W4 m ρ c)).trans ?_
  rw [layer4, (kept4 m ρ c).2.2]

theorem kept6 (c : Dev nD) : Kept m c (W6 m ρ c) :=
  ⟨((W6_arr m ρ c 1).trans (((dat2 (V5 m ρ) c).arrAt_in 1 rfl _).trans (A_eq2 (V5 m ρ) c 1))).trans (kept5 m ρ c).1,
   (W6_of_ne m ρ c main_arg3 (by decide)).trans (kept5 m ρ c).2.1,
   (W6_of_ne m ρ c main_arg4 (by decide)).trans (kept5 m ρ c).2.2⟩

theorem sum6 (c : Dev nD) :
    W6 m ρ c (Proc.devRef .tc main_v12) = addf (table m c) (round m c (table m c)) :=
  (W6_of_ne m ρ c main_v12 (by decide)).trans (sum5 m ρ c)

theorem scaled6 (c : Dev nD) :
    W6 m ρ c (Proc.devRef .tc main_v20) = scaleRows (gatherRows (round m c (table m c)) (cols m c)) (vals m c) := by
  refine (W6_arr m ρ c 2).trans ((Weigh2.final (V5 m ρ) c).trans ?_)
  show scaleRows (W5 m ρ c (Proc.devRef .tc main_v19)) (W5 m ρ c (Proc.devRef .tc main_arg0)) = _
  rw [gathered5, (kept5 m ρ c).1]

/-! ## Stretch 3 and launch 3 -/

theorem kept7 (c : Dev nD) : Kept m c (W7 m ρ c) :=
  ⟨(host_keeps hostOps3).trans (kept6 m ρ c).1, (host_keeps hostOps3).trans (kept6 m ρ c).2.1,
   (host_keeps hostOps3).trans (kept6 m ρ c).2.2⟩

theorem sum7 (c : Dev nD) :
    W7 m ρ c (Proc.devRef .tc main_v12) = addf (table m c) (round m c (table m c)) :=
  (host_keeps hostOps3).trans (sum6 m ρ c)

theorem layer7 (c : Dev nD) : W7 m ρ c (Proc.devRef .tc main_v23) = round m c (round m c (table m c)) := by
  refine (summed3 (W6 m ρ c)).trans ?_
  rw [(kept6 m ρ c).2.1, scaled6, round_eq m c (round m c (table m c))]

theorem kept8 (c : Dev nD) : Kept m c (W8 m ρ c) :=
  ⟨(W8_of_ne m ρ c main_arg0 (by decide)).trans (kept7 m ρ c).1,
   (W8_of_ne m ρ c main_arg3 (by decide)).trans (kept7 m ρ c).2.1,
   (W8_of_ne m ρ c main_arg4 (by decide)).trans (kept7 m ρ c).2.2⟩

theorem layer8 (c : Dev nD) : W8 m ρ c (Proc.devRef .tc main_v23) = round m c (round m c (table m c)) :=
  ((W8_arr m ρ c 1).trans (((dat3 (V7 m ρ) c).arrAt_in 1 rfl _).trans (A_eq3 (V7 m ρ) c 1))).trans (layer7 m ρ c)

theorem sum8 (c : Dev nD) : W8 m ρ c (Proc.devRef .tc main_v24)
    = addf (addf (table m c) (round m c (table m c))) (round m c (round m c (table m c))) := by
  refine (W8_arr m ρ c 2).trans ((Accum3.final (V7 m ρ) c).trans ?_)
  show addf (W7 m ρ c (Proc.devRef .tc main_v12)) (W7 m ρ c (Proc.devRef .tc main_v23)) = _
  rw [sum7, layer7]

/-! ## Stretch 4 and launch 4 -/

theorem kept9 (c : Dev nD) : Kept m c (W9 m ρ c) :=
  ⟨(host_keeps hostOps4).trans (kept8 m ρ c).1, (host_keeps hostOps4).trans (kept8 m ρ c).2.1,
   (host_keeps hostOps4).trans (kept8 m ρ c).2.2⟩

theorem sum9 (c : Dev nD) : W9 m ρ c (Proc.devRef .tc main_v24)
    = addf (addf (table m c) (round m c (table m c))) (round m c (round m c (table m c))) :=
  (host_keeps hostOps4).trans (sum8 m ρ c)

theorem gathered9 (c : Dev nD) :
    W9 m ρ c (Proc.devRef .tc main_v31) = gatherRows (round m c (round m c (table m c))) (cols m c) := by
  refine (gathered4 (W8 m ρ c)).trans ?_
  rw [layer8, (kept8 m ρ c).2.2]

theorem rows10 (c : Dev nD) : W10 m ρ c (Proc.devRef .tc main_arg3) = rows m c :=
  (W10_of_ne m ρ c main_arg3 (by decide)).trans (kept9 m ρ c).2.1

theorem sum10 (c : Dev nD) : W10 m ρ c (Proc.devRef .tc main_v24)
    = addf (addf (table m c) (round m c (table m c))) (round m c (round m c (table m c))) :=
  (W10_of_ne m ρ c main_v24 (by decide)).trans (sum9 m ρ c)

theorem scaled10 (c : Dev nD) : W10 m ρ c (Proc.devRef .tc main_v32)
    = scaleRows (gatherRows (round m c (round m c (table m c))) (cols m c)) (vals m c) := by
  refine (W10_arr m ρ c 2).trans ((Weigh4.final (V9 m ρ) c).trans ?_)
  show scaleRows (W9 m ρ c (Proc.devRef .tc main_v31)) (W9 m ρ c (Proc.devRef .tc main_arg0)) = _
  rw [gathered9, (kept9 m ρ c).1]

/-! ## Stretch 5 and launch 5 -/

theorem sum11 (c : Dev nD) : W11 m ρ c (Proc.devRef .tc main_v24)
    = addf (addf (table m c) (round m c (table m c))) (round m c (round m c (table m c))) :=
  (host_keeps hostOps5).trans (sum10 m ρ c)

theorem layer11 (c : Dev nD) :
    W11 m ρ c (Proc.devRef .tc main_v35) = round m c (round m c (round m c (table m c))) := by
  refine (summed5 (W10 m ρ c)).trans ?_
  rw [rows10, scaled10, round_eq m c (round m c (round m c (table m c)))]

theorem sum12 (c : Dev nD) : W12 m ρ c (Proc.devRef .tc main_v36) = total m c := by
  refine (W12_arr m ρ c 2).trans ((Accum5.final (V11 m ρ) c).trans ?_)
  show addf (W11 m ρ c (Proc.devRef .tc main_v24)) (W11 m ρ c (Proc.devRef .tc main_v35)) = _
  rw [sum11, layer11]
  rfl

/-! ## Stretch 6: the two results -/

theorem users13 (c : Dev nD) : W13 m ρ c (Proc.devRef .tc main_v37) = userRows (total m c) :=
  (users6 (W12 m ρ c)).trans (congrArg userRows (sum12 m ρ c))

theorem items13 (c : Dev nD) : W13 m ρ c (Proc.devRef .tc main_v38) = itemRows (total m c) :=
  (items6 (W12 m ρ c)).trans (congrArg itemRows (sum12 m ρ c))

end Cert.KernelIdeal.Fold

end
-- ==== Proof.KernelValue.lean ====
/-
  The run of the idealized kernel program, read: every weakly fair execution ends with the users' rows and the items'
  rows of `T + P T + P (P T) + P (P (P T))` in its two result buffers (`T` the node table, `P` one round of message
  passing), the arguments unchanged — the run with its results named at the last boundary's contents, and those
  contents as computed segment by segment.
-/
import proofs.«132044_j74156905333132_1_alg».proof.Proof.KernelRun
import proofs.«132044_j74156905333132_1_alg».proof.Proof.Fold

noncomputable section

namespace Cert.KernelIdeal.Fold

open Idealize.ShloMosaic Idealize.ShloMosaic.TcCoe Idealize.SL.Sem
open Cert.KernelIdeal Cert.KernelIdeal.Gen Cert.KernelIdeal.Layer

variable {F : FTy → Type} [FloatOps F]
variable (m : (ℓ : Loc nD τ sig) → Buf (Elt F) ℓ) (ρ : Dev nD → PrngReg)

/-- Every weakly fair execution of @main terminates, nothing faulting, with the two results at the users' and the
    items' rows of the layer sum and the argument arrays as launched. -/
theorem run : θ_run defs (onTc (τ := τ) (main (F := F))) ⟨m, fun _ => 0, ρ⟩ (fun r => ∀ c : Dev nD,
      r.2.mem ((c.tc : Thread nD τ).loc main_v37) = userRows (total m c)
      ∧ r.2.mem ((c.tc : Thread nD τ).loc main_v38) = itemRows (total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨(h c).1.trans (users13 m ρ c), (h c).2.1.trans (items13 m ρ c), (h c).2.2⟩)
    (Cert.KernelIdeal.Results.run_results m ρ)

end Cert.KernelIdeal.Fold

end
-- ==== Proof.Bridge.lean ====
/-
  The reference's results are the kernel program's. The reference builds the same node table `T`, runs the same
  round `P` three times — the same gather, the same scatter-add, and between them the gathered rows times the
  entries' values broadcast along the rows, which is the row scaling — and adds the layers in the same order,
  `((T + P T) + P (P T)) + P (P (P T))`, before it cuts the sum into the users' and the items' rows. Read one
  operation at a time, each of its values is the kernel program's value of the same name; the one step that needs an
  argument is the row scaling's two spellings. So once the arguments agree, its two results are the kernel program's.
-/
import proofs.«132044_j74156905333132_1_alg».proof.Proof.Gen.ReferenceIdeal.Read
import proofs.«132044_j74156905333132_1_alg».proof.Proof.Fold

set_option maxRecDepth 16384

noncomputable section

namespace Cert.ReferenceIdeal.Bridge

open Idealize.ShloMosaic Idealize.ShloMosaic.TcCoe Idealize.SL.Sem
open Cert.ReferenceIdeal Cert.ReferenceIdeal.Gen Cert.ReferenceIdeal.Value Cert.ReferenceIdeal.Read
open Cert.KernelIdeal.Layer (nodeTable sourceColumn gatherRows segmentSum propagate userRows itemRows)

variable (x0 : FVec Ideal S1280000 .f32) (x1 : FVec Ideal S100000x64 .f32) (x2 : FVec Ideal S200000x64 .f32)
  (x3 x4 : IVec S1280000 32)

/-- The node table of the arguments at hand … -/
local notation "T" => nodeTable (F := Ideal) x1 x2
/-- … and one round over them. -/
local notation "P" => propagate (F := Ideal) x0 x3 x4

/-! ## The reference's values, one operation at a time -/

/-- Its node table is `T`. -/
theorem table_eq : val_main_v0 (F := Ideal) x1 x2 = T := rfl

/-- Its three source-index columns are the one the kernel program computes. -/
theorem column1_eq : val_main_v6 (F := Ideal) x4 = sourceColumn x4 := rfl
theorem column2_eq : val_main_v20 (F := Ideal) x4 = sourceColumn x4 := rfl
theorem column3_eq : val_main_v34 (F := Ideal) x4 = sourceColumn x4 := rfl

/-- Its first layer is `P T`: the gathered rows times the broadcast values are the scaled rows. -/
theorem round1_eq : val_main_v13 (F := Ideal) x0 x1 x2 x3 x4 = P T := by
  unfold val_main_v13 val_main_v10 val_main_v9 val_main_v8 val_main_v7
  rw [Cert.Spmm.mulf_bcast_eq, table_eq, column1_eq]
  rfl

/-- Its first running sum is `T + P T`. -/
theorem sum1_eq : val_main_v14 (F := Ideal) x0 x1 x2 x3 x4 = addf T (P T) := by
  unfold val_main_v14
  rw [table_eq, round1_eq]

/-- Its second layer is `P (P T)`. -/
theorem round2_eq : val_main_v27 (F := Ideal) x0 x1 x2 x3 x4 = P (P T) := by
  unfold val_main_v27 val_main_v24 val_main_v23 val_main_v22 val_main_v21
  rw [Cert.Spmm.mulf_bcast_eq, round1_eq, column2_eq]
  rfl

/-- Its second running sum is `(T + P T) + P (P T)`. -/
theorem sum2_eq : val_main_v28 (F := Ideal) x0 x1 x2 x3 x4 = addf (addf T (P T)) (P (P T)) := by
  unfold val_main_v28
  rw [sum1_eq, round2_eq]

/-- Its third layer is `P (P (P T))`. -/
theorem round3_eq : val_main_v41 (F := Ideal) x0 x1 x2 x3 x4 = P (P (P T)) := by
  unfold val_main_v41 val_main_v38 val_main_v37 val_main_v36 val_main_v35
  rw [Cert.Spmm.mulf_bcast_eq, round2_eq, column3_eq]
  rfl

/-- Its last running sum is `((T + P T) + P (P T)) + P (P (P T))`. -/
theorem sum3_eq : val_main_v42 (F := Ideal) x0 x1 x2 x3 x4
    = addf (addf (addf T (P T)) (P (P T))) (P (P (P T))) := by
  unfold val_main_v42
  rw [sum2_eq, round3_eq]

/-! ## The two results, from memories that agree on the arguments -/

variable (m : (ℓ : Loc Cert.KernelIdeal.nD Cert.KernelIdeal.τ Cert.KernelIdeal.sig) → Buf (Elt Ideal) ℓ)
variable (m' : (ℓ : Loc nD τ sig) → Buf (Elt Ideal) ℓ)

/-- The two memories hold the same five argument arrays on core `c`. -/
def Agree (c : Dev nD) : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)
  ∧ m' ((c.tc : Thread nD τ).loc main_arg4) = m ((c.tc : Thread Cert.KernelIdeal.nD Cert.KernelIdeal.τ).loc Cert.KernelIdeal.main_arg4)

/-- The reference's first result is the users' rows of the kernel program's layer sum. -/
theorem users_eq (c : Dev nD) (h : Agree m m' c) :
    res_main_v43 m' c = userRows (F := Ideal) (Cert.KernelIdeal.Fold.total m c) := by
  obtain ⟨h0, h1, h2, h3, h4⟩ := h
  rw [val_main_v43_eq, h0, h1, h2, h3, h4]
  unfold val_main_v43
  rw [sum3_eq]
  rfl

/-- The reference's second result is the items' rows of the kernel program's layer sum. -/
theorem items_eq (c : Dev nD) (h : Agree m m' c) :
    res_main_v44 m' c = itemRows (F := Ideal) (Cert.KernelIdeal.Fold.total m c) := by
  obtain ⟨h0, h1, h2, h3, h4⟩ := h
  rw [val_main_v44_eq, h0, h1, h2, h3, h4]
  unfold val_main_v44
  rw [sum3_eq]
  rfl

end Cert.ReferenceIdeal.Bridge

end
-- ==== Proof.lean ====
/-
  Three rounds of message passing over a graph in coordinate form, with the running sum of the layers: the kernel
  program against its reference, over the extended reals.

  Both programs build the node table `T` (the user rows, then the item rows) and apply three times one round `P`:
  for every stored entry `e`, read row `cols e` of the current table, scale it by `vals e`, and add it into row
  `rows e` of a fresh table of zeros. Both return the users' rows and the items' rows of
  `((T + P T) + P (P T)) + P (P (P T))`. They differ in where the two entrywise steps run: the reference multiplies
  the gathered rows by the values broadcast along the rows, and adds the layers, as host operations; the kernel
  program does each in a launch that walks the array block by block (50 blocks of 25 600 entries for the scaling,
  30 blocks of 10 000 rows for the sum). A launch's blocks tile its result array and each block of the result is
  that block of one whole-array function, so a launch computes exactly the host operation it stands for; the gather
  and the scatter-add are the same host operations on both sides. No law of arithmetic is used: the two result terms
  are equal operation for operation, at any extended-real inputs, so the finiteness of the inputs is never opened.

  The frames of the two kernel programs are the generated ones; the reference's frame is its generated run with the
  results dropped; no operation was rewritten for the idealization, so that claim is trivial.
-/
import proofs.«132044_j74156905333132_1_alg».proof.Defs
import proofs.«132044_j74156905333132_1_alg».proof.Proof.Gen.Kernel
import proofs.«132044_j74156905333132_1_alg».proof.Proof.Gen.Kernel.Frame
import proofs.«132044_j74156905333132_1_alg».proof.Proof.Gen.KernelIdeal
import proofs.«132044_j74156905333132_1_alg».proof.Proof.Gen.KernelIdeal.Frame
import proofs.«132044_j74156905333132_1_alg».proof.Proof.Gen.ReferenceIdeal
import proofs.«132044_j74156905333132_1_alg».proof.Proof.Gen.ReferenceIdeal.Run
import proofs.«132044_j74156905333132_1_alg».proof.Proof.Gen.ReferenceIdeal.Read
import proofs.«132044_j74156905333132_1_alg».proof.Proof.Gen.Pre_finite_inputs
import proofs.«132044_j74156905333132_1_alg».proof.Proof.KernelValue
import proofs.«132044_j74156905333132_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the users' rows and the items' rows of the same
    layer sum. -/
theorem algebraic : Cert.algebraic_KernelIdeal_ReferenceIdeal := by
  intro m ρ m' ρ' _ hagree
  refine ⟨fun c => Cert.KernelIdeal.Layer.userRows (Cert.KernelIdeal.Fold.total m c),
    fun c => Cert.KernelIdeal.Layer.itemRows (Cert.KernelIdeal.Fold.total m c),
    Cert.KernelIdeal.Fold.run (F := Ideal) m ρ, ?_⟩
  refine (θ_run Cert.ReferenceIdeal.defs _ _).mono (fun _ h c =>
      ⟨(h c).1.trans (Cert.ReferenceIdeal.Bridge.users_eq m m' c (hagree c)),
       (h c).2.1.trans (Cert.ReferenceIdeal.Bridge.items_eq m m' c (hagree c)),
       (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
